-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 35
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S1x64, .f32⟩
  | .hbm, ⟨34, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x64, .f32⟩
  | .hbm, ⟨19, _⟩ => ⟨S100000x1, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  What the layer computes, as plain functions on arrays of extended reals.

  `scaledProduct x w n` is the matrix product x · w with row r scaled by n (r, 0): entry (r, q) is
  (∑ k, x (r, k) · w (k, q)) · n (r, 0). `scaledShifted a n b` scales row r of a by n (r, 0) and adds the
  one-row table b to every row: entry (r, q) is a (r, q) · n (r, 0) + b (0, q).
-/
import Idealize.ShloMosaic.PureOps.Ideal
import Idealize.ShloMosaic.Lib.ValueIdx

noncomputable section

namespace Cert.Spec

open Idealize.ShloMosaic Idealize.ShloMosaic.ValueIdx

/-- Rows of the product x · w, each scaled by its entry of a one-column table. -/
def scaledProduct (x : (⟨2, ![100000, 128]⟩ : Shape).Idx → EReal) (w : (⟨2, ![128, 64]⟩ : Shape).Idx → EReal)
    (n : (⟨2, ![100000, 1]⟩ : Shape).Idx → EReal) : (⟨2, ![100000, 64]⟩ : Shape).Idx → EReal :=
  fun i => (∑ k : Fin 128, x (ix2 (i 0) k) * w (ix2 k (i 1))) * n (ix2 (i 0) (0 : Fin 1))

theorem scaledProduct_apply (x : (⟨2, ![100000, 128]⟩ : Shape).Idx → EReal) (w : (⟨2, ![128, 64]⟩ : Shape).Idx → EReal)
    (n : (⟨2, ![100000, 1]⟩ : Shape).Idx → EReal) (r : Fin 100000) (q : Fin 64) :
    scaledProduct x w n (ix2 r q) = (∑ k : Fin 128, x (ix2 r k) * w (ix2 k q)) * n (ix2 r (0 : Fin 1)) := rfl

/-- Rows scaled by their entry of a one-column table, then shifted by a one-row table. -/
def scaledShifted (a : (⟨2, ![100000, 64]⟩ : Shape).Idx → EReal) (n : (⟨2, ![100000, 1]⟩ : Shape).Idx → EReal)
    (b : (⟨2, ![1, 64]⟩ : Shape).Idx → EReal) : (⟨2, ![100000, 64]⟩ : Shape).Idx → EReal :=
  fun i => a i * n (ix2 (i 0) (0 : Fin 1)) + b (ix2 (0 : Fin 1) (i 1))

theorem scaledShifted_apply (a : (⟨2, ![100000, 64]⟩ : Shape).Idx → EReal) (n : (⟨2, ![100000, 1]⟩ : Shape).Idx → EReal)
    (b : (⟨2, ![1, 64]⟩ : Shape).Idx → EReal) (r : Fin 100000) (q : Fin 64) :
    scaledShifted a n b (ix2 r q) = a (ix2 r q) * n (ix2 r (0 : Fin 1)) + b (ix2 (0 : Fin 1) q) := rfl

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.Region0.lean ====
/-
  The projection kernel's output array, whole.

  The first kernel walks the 100000 rows of the feature matrix in ten blocks of 10000 rows. At block t it
  multiplies the block (rows 10000 t … 10000 t + 9999, all 128 columns) with the whole 128 × 64 weight
  matrix and scales row p of the product by the p-th entry of the block's piece of the one-column scale
  table. Entry (p, q) of what it stores is therefore

      (∑ k, x (10000 t + p, k) · w (k, q)) · n (10000 t + p, 0),

  which is entry (10000 t + p, q) of ONE function of the three arrays, `scaledProduct`. The ten blocks
  tile the 100000 × 64 result, so after the region the result array IS that function — whatever the
  three arrays held when the region was entered.
-/
import proofs.«157520_j9706626090092_1_alg».proof.Proof.Gen.KernelIdeal.Frame
import proofs.«157520_j9706626090092_1_alg».proof.Proof.Spec
import proofs.«157520_j9706626090092_1_alg».proof.Proof.LibPlainDot
import proofs.«157520_j9706626090092_1_alg».proof.Proof.LibColumnForms
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Projection

open Cert.KernelIdeal Cert.KernelIdeal.Gen Cert.Spec

theorem origin : (![0, 0] : Fin 2 → Nat) = fun _ => 0 := funext fun a => by fin_cases a <;> rfl

/-- What the body stores, at entry (p, q) of the block: the dot of row p of the feature block with column q
    of the weight, times the p-th scale. The change of float format before the product is the identity on
    extended reals, and the product into a zero accumulator is the plain sum. -/
theorem stored_apply (x0 : Vec Ideal S10000x128 .f32) (x1 : Vec Ideal S128x64 .f32) (x2 : Vec Ideal S10000x1 .f32)
    (p : Fin 10000) (q : Fin 64) :
    k0_pay1 (F := Ideal) x0 x1 x2 (ix2 p q)
      = (∑ k : Fin 128, x0 (ix2 p k) * x1 (ix2 k q)) * x2 (ix2 p (0 : Fin 1)) := by
  unfold k0_pay1
  rw [mulf_apply]
  refine congrArg₂ (· * ·) ?_ ?_
  · exact Cert.LibPlainDot.matmul_zero_apply dot_S10000x128_S128x64_S10000x64_1_0_0_1_n_n rfl rfl rfl rfl rfl rfl none _ _ p q
  · rw [Idealize.ShloMosaic.ColumnForms.broadcastTo_a1_ac_apply, shapeCast_self]

/-! ## Where the blocks sit -/

section
variable (V : (c : Dev nD) → (b : Ref sig .tc) → Buf (Elt Ideal) ((c : Thread nD τ).loc b))

/-- At point t the feature, scale and result windows are at row block t, column block 0; the weight window
    stays at block (0, 0). Decided over the ten points. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 :=
  Nat.lt_of_lt_of_eq t.isLt (show cfg0.N = 10 from N_0)

/-- Entry (p, k) of the feature block at point t is entry (10000 t + p, k) of the feature array. -/
theorem featBlock_apply (c : Dev nD) (t : Fin cfg0.N) (p : Fin 10000) (k : Fin 128) (r : Fin 100000)
    (hr : r.val = 10000 * t.val + p.val) :
    (iblk0 V c 0 t : Vec Ideal S10000x128 .f32) (ix2 p k) = (V c main_arg0 : S100000x128.Idx → EReal) (ix2 r k) := by
  obtain ⟨h0, h1, -⟩ := index_facts t
  unfold iblk0
  rw [View.read_apply]
  show V c main_arg0 _ = V c main_arg0 _
  congr 1
  funext a
  apply Fin.ext
  match a with
  | ⟨0, _⟩ => show win0_0.index t 0 * 10000 + 1 * p.val = r.val; rw [h0, hr]; omega
  | ⟨1, _⟩ => show win0_0.index t 1 * 128 + 1 * k.val = k.val; rw [h1]; omega

/-- The weight block at every point is the whole weight array. -/
theorem weightBlock_apply (c : Dev nD) (t : Fin cfg0.N) (k : Fin 128) (q : Fin 64) :
    (iblk0 V c 1 t : Vec Ideal S128x64 .f32) (ix2 k q) = (V c main_arg1 : S128x64.Idx → EReal) (ix2 k q) := by
  obtain ⟨-, -, h0, h1, -⟩ := index_facts t
  unfold iblk0
  rw [View.read_apply]
  show V c main_arg1 _ = V c main_arg1 _
  congr 1
  funext a
  apply Fin.ext
  match a with
  | ⟨0, _⟩ => show win0_1.index t 0 * 128 + 1 * k.val = k.val; rw [h0]; omega
  | ⟨1, _⟩ => show win0_1.index t 1 * 64 + 1 * q.val = q.val; rw [h1]; omega

/-- Entry (p, 0) of the scale block at point t is entry (10000 t + p, 0) of the scale table. -/
theorem scaleBlock_apply (c : Dev nD) (t : Fin cfg0.N) (p : Fin 10000) (r : Fin 100000)
    (hr : r.val = 10000 * t.val + p.val) :
    (iblk0 V c 2 t : Vec Ideal S10000x1 .f32) (ix2 p (0 : Fin 1)) = (V c main_v7 : S100000x1.Idx → EReal) (ix2 r (0 : Fin 1)) := by
  obtain ⟨-, -, -, -, h0, h1, -⟩ := index_facts t
  unfold iblk0
  rw [View.read_apply]
  show V c main_v7 _ = V c main_v7 _
  congr 1
  funext a
  apply Fin.ext
  match a with
  | ⟨0, _⟩ => show win0_2.index t 0 * 10000 + 1 * p.val = r.val; rw [h0, hr]; omega
  | ⟨1, _⟩ => show win0_2.index t 1 * 1 + 1 * 0 = 0; rw [h1]

/-! ## What a point writes back, and the whole array -/

/-- What point t writes back is block t of the scaled product of the arrays the region was entered with. -/
theorem flushed_eq (c : Dev nD) (t : Fin cfg0.N) :
    (dat0 V c).flushed 3 t
      = ((cfg0.win 3).blk t).view.read (Elt Ideal) (scaledProduct (V c main_arg0) (V c main_arg1) (V c main_v7)) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x64) origin,
    View.ld_unit_zero (S := S10000x1) origin]
  funext j
  obtain ⟨p, q, rfl⟩ : ∃ (p : Fin 10000) (q : Fin 64), j = ix2 p q := ⟨j 0, j 1, eq_ix2 j⟩
  have ht := point_lt t
  have hp := p.isLt
  obtain ⟨-, -, -, -, -, -, h0, h1⟩ := index_facts t
  let r : Fin 100000 := ⟨10000 * t.val + p.val, by omega⟩
  have hemb : ((cfg0.win 3).blk t).view.emb (ix2 p q) = (ix2 r q : S100000x64.Idx) := by
    funext a
    apply Fin.ext
    match a with
    | ⟨0, _⟩ => show win0_3.index t 0 * 10000 + 1 * p.val = 10000 * t.val + p.val; rw [h0]; omega
    | ⟨1, _⟩ => show win0_3.index t 1 * 64 + 1 * q.val = q.val; rw [h1]; omega
  rw [View.read_apply, hemb, scaledProduct_apply]
  refine (stored_apply (iblk0 V c 0 t) (iblk0 V c 1 t) (iblk0 V c 2 t) p q).trans ?_
  refine congrArg₂ (· * ·) (Finset.sum_congr rfl fun k _ => ?_) (scaleBlock_apply V c t p r rfl)
  rw [featBlock_apply V c t p k r rfl, weightBlock_apply V c t k q]

/-- Row i of the result lies in the block of point i / 10000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, h0, h1⟩ := index_facts t
  refine ⟨t, flush0_3 t, ?_⟩
  show i ∈ ((View.whole main_v8).slice (win0_3.rect t)).set
  rw [View.set_slice_whole, Rect.mem_set_unit]
  intro a
  match a with
  | ⟨0, _⟩ =>
    show win0_3.index t 0 * 10000 ≤ (i 0).val ∧ (i 0).val < win0_3.index t 0 * 10000 + 10000
    rw [h0]
    show (i 0).val / 10000 * 10000 ≤ (i 0).val ∧ (i 0).val < (i 0).val / 10000 * 10000 + 10000
    omega
  | ⟨1, _⟩ =>
    show win0_3.index t 1 * 64 ≤ (i 1).val ∧ (i 1).val < win0_3.index t 1 * 64 + 64
    rw [h1]
    omega

/-- After the region the result array is the scaled product of the arrays the region was entered with. -/
theorem arr_eq (c : Dev nD) :
    (dat0 V c).arrAt 3 cfg0.N = scaledProduct (V c main_arg0) (V c main_arg1) (V c main_v7) :=
  (dat0 V c).arrAt_eq_of_cover 3 _ (fun t _ => flushed_eq V c t) (covered)

end

end Cert.KernelIdeal.Projection

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.Region1.lean ====
/-
  The scaling kernel's output array, whole.

  The second kernel walks the 100000 × 64 aggregate in ten blocks of 10000 rows. At block t it scales row p
  of the block by the p-th entry of the block's piece of the one-column scale table and adds the one-row
  bias table to every row. Entry (p, q) of what it stores is

      a (10000 t + p, q) · n (10000 t + p, 0) + b (0, q),

  which is entry (10000 t + p, q) of ONE function of the three arrays, `scaledShifted`. The ten blocks tile
  the result, so after the region the result array IS that function of what the three arrays held when the
  region was entered.
-/
import proofs.«157520_j9706626090092_1_alg».proof.Proof.Gen.KernelIdeal.Frame
import proofs.«157520_j9706626090092_1_alg».proof.Proof.Spec
import proofs.«157520_j9706626090092_1_alg».proof.Proof.LibColumnForms
import proofs.«157520_j9706626090092_1_alg».proof.Proof.LibRowBroadcast
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scaling

open Cert.KernelIdeal Cert.KernelIdeal.Gen Cert.Spec

theorem origin : (![0, 0] : Fin 2 → Nat) = fun _ => 0 := funext fun a => by fin_cases a <;> rfl

/-- What the body stores, at entry (p, q) of the block. -/
theorem stored_apply (x0 : Vec Ideal S10000x64 .f32) (x1 : Vec Ideal S10000x1 .f32) (x2 : Vec Ideal S1x64 .f32)
    (p : Fin 10000) (q : Fin 64) :
    k1_pay1 (F := Ideal) x0 x1 x2 (ix2 p q) = x0 (ix2 p q) * x1 (ix2 p (0 : Fin 1)) + x2 (ix2 (0 : Fin 1) q) := by
  unfold k1_pay1
  rw [addf_apply, mulf_apply]
  refine congrArg₂ (· + ·) (congrArg₂ (· * ·) ?_ ?_) ?_
  · rw [shapeCast_self]
  · rw [Idealize.ShloMosaic.ColumnForms.broadcastTo_a1_ac_apply, shapeCast_self]
  · rw [Idealize.ShloMosaic.RowBroadcast.broadcastTo_row, shapeCast_self]

/-! ## Where the blocks sit -/

section
variable (V : (c : Dev nD) → (b : Ref sig .tc) → Buf (Elt Ideal) ((c : Thread nD τ).loc b))

/-- At point t the aggregate, scale and result windows are at row block t, column block 0; the bias window
    stays at block (0, 0). Decided over the ten points. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 10 :=
  Nat.lt_of_lt_of_eq t.isLt (show cfg1.N = 10 from N_1)

/-- Entry (p, q) of the aggregate block at point t is entry (10000 t + p, q) of the aggregate. -/
theorem aggBlock_apply (c : Dev nD) (t : Fin cfg1.N) (p : Fin 10000) (q : Fin 64) (r : Fin 100000)
    (hr : r.val = 10000 * t.val + p.val) :
    (iblk1 V c 0 t : Vec Ideal S10000x64 .f32) (ix2 p q) = (V c main_v18 : S100000x64.Idx → EReal) (ix2 r q) := by
  obtain ⟨h0, h1, -⟩ := index_facts t
  unfold iblk1
  rw [View.read_apply]
  show V c main_v18 _ = V c main_v18 _
  congr 1
  funext a
  apply Fin.ext
  match a with
  | ⟨0, _⟩ => show win1_0.index t 0 * 10000 + 1 * p.val = r.val; rw [h0, hr]; omega
  | ⟨1, _⟩ => show win1_0.index t 1 * 64 + 1 * q.val = q.val; rw [h1]; omega

/-- Entry (p, 0) of the scale block at point t is entry (10000 t + p, 0) of the scale table. -/
theorem scaleBlock_apply (c : Dev nD) (t : Fin cfg1.N) (p : Fin 10000) (r : Fin 100000)
    (hr : r.val = 10000 * t.val + p.val) :
    (iblk1 V c 1 t : Vec Ideal S10000x1 .f32) (ix2 p (0 : Fin 1)) = (V c main_v7 : S100000x1.Idx → EReal) (ix2 r (0 : Fin 1)) := by
  obtain ⟨-, -, h0, h1, -⟩ := index_facts t
  unfold iblk1
  rw [View.read_apply]
  show V c main_v7 _ = V c main_v7 _
  congr 1
  funext a
  apply Fin.ext
  match a with
  | ⟨0, _⟩ => show win1_1.index t 0 * 10000 + 1 * p.val = r.val; rw [h0, hr]; omega
  | ⟨1, _⟩ => show win1_1.index t 1 * 1 + 1 * 0 = 0; rw [h1]

/-- The bias block at every point is the whole one-row bias table. -/
theorem biasBlock_apply (c : Dev nD) (t : Fin cfg1.N) (q : Fin 64) :
    (iblk1 V c 2 t : Vec Ideal S1x64 .f32) (ix2 (0 : Fin 1) q) = (V c main_v19 : S1x64.Idx → EReal) (ix2 (0 : Fin 1) q) := by
  obtain ⟨-, -, -, -, h0, h1, -⟩ := index_facts t
  unfold iblk1
  rw [View.read_apply]
  show V c main_v19 _ = V c main_v19 _
  congr 1
  funext a
  apply Fin.ext
  match a with
  | ⟨0, _⟩ => show win1_2.index t 0 * 1 + 1 * 0 = 0; rw [h0]
  | ⟨1, _⟩ => show win1_2.index t 1 * 64 + 1 * q.val = q.val; rw [h1]; omega

/-! ## What a point writes back, and the whole array -/

/-- What point t writes back is block t of the scaled and shifted aggregate. -/
theorem flushed_eq (c : Dev nD) (t : Fin cfg1.N) :
    (dat1 V c).flushed 3 t
      = ((cfg1.win 3).blk t).view.read (Elt Ideal) (scaledShifted (V c main_v18) (V c main_v7) (V c main_v19)) := by
  show (cfg1.win 3).cut (grid1.coords t) ((dat1 V c).after 3 t) = _
  rw [after1_3]
  unfold out1_3
  rw [View.canon_unit_zero origin]
  simp only [View.ld_unit_zero (S := S10000x64) origin, View.ld_unit_zero (S := S10000x1) origin,
    View.ld_unit_zero (S := S1x64) origin]
  funext j
  obtain ⟨p, q, rfl⟩ : ∃ (p : Fin 10000) (q : Fin 64), j = ix2 p q := ⟨j 0, j 1, eq_ix2 j⟩
  have ht := point_lt t
  have hp := p.isLt
  obtain ⟨-, -, -, -, -, -, h0, h1⟩ := index_facts t
  let r : Fin 100000 := ⟨10000 * t.val + p.val, by omega⟩
  have hemb : ((cfg1.win 3).blk t).view.emb (ix2 p q) = (ix2 r q : S100000x64.Idx) := by
    funext a
    apply Fin.ext
    match a with
    | ⟨0, _⟩ => show win1_3.index t 0 * 10000 + 1 * p.val = 10000 * t.val + p.val; rw [h0]; omega
    | ⟨1, _⟩ => show win1_3.index t 1 * 64 + 1 * q.val = q.val; rw [h1]; omega
  rw [View.read_apply, hemb, scaledShifted_apply]
  refine (stored_apply (iblk1 V c 0 t) (iblk1 V c 1 t) (iblk1 V c 2 t) p q).trans ?_
  rw [aggBlock_apply V c t p q r rfl, scaleBlock_apply V c t p r rfl, biasBlock_apply V c t q]
  rfl

/-- Row i of the result lies in the block of point i / 10000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, -, -, -, -, h0, h1⟩ := index_facts t
  refine ⟨t, flush1_3 t, ?_⟩
  show i ∈ ((View.whole main_v20).slice (win1_3.rect t)).set
  rw [View.set_slice_whole, Rect.mem_set_unit]
  intro a
  match a with
  | ⟨0, _⟩ =>
    show win1_3.index t 0 * 10000 ≤ (i 0).val ∧ (i 0).val < win1_3.index t 0 * 10000 + 10000
    rw [h0]
    show (i 0).val / 10000 * 10000 ≤ (i 0).val ∧ (i 0).val < (i 0).val / 10000 * 10000 + 10000
    omega
  | ⟨1, _⟩ =>
    show win1_3.index t 1 * 64 ≤ (i 1).val ∧ (i 1).val < win1_3.index t 1 * 64 + 64
    rw [h1]
    omega

/-- After the region the result array is the scaled and shifted aggregate, of the arrays the region was entered with. -/
theorem arr_eq (c : Dev nD) :
    (dat1 V c).arrAt 3 cfg1.N = scaledShifted (V c main_v18) (V c main_v7) (V c main_v19) :=
  (dat1 V c).arrAt_eq_of_cover 3 _ (fun t _ => flushed_eq V c t) (covered)

end

end Cert.KernelIdeal.Scaling

end
-- ==== Proof.HostReads.lean ====
/-
  What the two regions are entered with.

  Before the first region the host computes the degree scale: it counts, for every node, the edges whose
  source it is (a scatter-add of ones over the source indices), clamps the count below by one and raises it
  to the power −1/2 (`degreeScale`), then lays the vector out as one column. The feature and weight arrays
  are the program's arguments, untouched.

  Between the regions the host gathers rows of the first region's result by (wrapped) source index and
  scatter-adds them by destination index into a zero table (`aggregate`); it lays the bias vector out as one
  row; the scale column is as the first region found it, since that region only reads it.

  The gather and the scatter-add are carried as they stand: nothing here looks inside them.
-/
import proofs.«157520_j9706626090092_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Idealize.ShloMosaic.Pipeline (Dat)

namespace Cert.KernelIdeal.Between

open Cert.KernelIdeal Cert.KernelIdeal.Gen

/-- Out-degree of every node, clamped below by one, to the power −1/2. -/
def degreeScale (src : (⟨S1600000, .i32⟩ : BufTy).Contents (Elt Ideal)) : (⟨S100000, .f32⟩ : BufTy).Contents (Elt Ideal) :=
  Host.powf (F := Ideal)
    (maximumf (broadcastInDim S100000 ![] bcast_S_S100000 (id (constant (F := Ideal) S_ .f32 0x3F800000#32)))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 src)
        (broadcastInDim S1600000 ![] bcast_S_S1600000 (constant (F := Ideal) S_ .f32 0x3F800000#32))))
    (broadcastInDim S100000 ![] bcast_S_S100000 (constant (F := Ideal) S_ .f32 0xBF000000#32))

/-- Rows of `h` gathered by source index (a negative index wrapped once by the row count) and summed into
    their destination rows. -/
def aggregate (h : (⟨S100000x64, .f32⟩ : BufTy).Contents (Elt Ideal))
    (src dst : (⟨S1600000, .i32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select
          (cmpi .slt src (broadcastInDim S1600000 ![] bcast_S_S1600000 (constantI S_ 32 0#32)))
          (addi src (broadcastInDim S1600000 ![] bcast_S_S1600000 (constantI S_ 32 100000#32)))
          src)))

variable (m : (ℓ : Loc nD τ sig) → Buf (Elt Ideal) ℓ) (ρ : Dev nD → PrngReg)

/-! ## At the first region's entry -/

theorem entry0_feat (c : Dev nD) : V3 m ρ c main_arg0 = m ((c : Thread nD τ).loc main_arg0) := by
  show W3 m ρ c (Proc.devRef .tc main_arg0) = _
  dsimp only [W3, W2, W1, hostOps0_2, hostOps0_1, hostOps0]
  after_results

theorem entry0_weight (c : Dev nD) : V3 m ρ c main_arg1 = m ((c : Thread nD τ).loc main_arg1) := by
  show W3 m ρ c (Proc.devRef .tc main_arg1) = _
  dsimp only [W3, W2, W1, hostOps0_2, hostOps0_1, hostOps0]
  after_results

theorem entry0_bias (c : Dev nD) : W3 m ρ c (Proc.devRef .tc main_arg2) = m ((c : Thread nD τ).loc main_arg2) := by
  dsimp only [W3, W2, W1, hostOps0_2, hostOps0_1, hostOps0]
  after_results

theorem entry0_src (c : Dev nD) : W3 m ρ c (Proc.devRef .tc main_arg3) = m ((c : Thread nD τ).loc main_arg3) := by
  dsimp only [W3, W2, W1, hostOps0_2, hostOps0_1, hostOps0]
  after_results

theorem entry0_dst (c : Dev nD) : W3 m ρ c (Proc.devRef .tc main_arg4) = m ((c : Thread nD τ).loc main_arg4) := by
  dsimp only [W3, W2, W1, hostOps0_2, hostOps0_1, hostOps0]
  after_results

/-! ### The scale column, one stretch at a time

Each stretch is read over an arbitrary valuation `W` of the buffers, so that what it computes is stated over
opaque operands; the three are then chained. -/

section Stretches
variable (W : Valuation τ sig (Elt Ideal))

/-- The first stretch counts the edges out of every node: a scatter-add of ones over the source indices. -/
theorem count_stretch :
    StableHlo.after hostOps0 W (Proc.devRef .tc main_v3)
      = Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (W (Proc.devRef .tc main_arg3)))
          (broadcastInDim S1600000 ![] bcast_S_S1600000 (constant (F := Ideal) S_ .f32 0x3F800000#32)) := by
  dsimp only [hostOps0]
  after_results

/-- … and leaves the constant one for the clamp. -/
theorem one_stretch : StableHlo.after hostOps0 W (Proc.devRef .tc main_cst_1) = constant (F := Ideal) S_ .f32 0x3F800000#32 := by
  dsimp only [hostOps0]
  after_results

/-- Contents carried to a buffer of their own type, or back, are the contents. -/
theorem carried_v4 (v : (⟨S100000, .f32⟩ : BufTy).Contents (Elt Ideal)) :
    (TRef.of (T := ⟨S100000, .f32⟩) main_v4).toBuf v = v := rfl
theorem carried_v3 (v : (⟨S100000, .f32⟩ : BufTy).Contents (Elt Ideal)) :
    (TRef.of (T := ⟨S100000, .f32⟩) main_v3).ofBuf v = v := rfl
theorem carried_row_to (v : (⟨S100000, .f32⟩ : BufTy).Contents (Elt Ideal)) :
    (TRef.of (T := ⟨S100000, .f32⟩) main_call0_v1).toBuf v = v := rfl
theorem carried_row_from (v : (⟨S100000, .f32⟩ : BufTy).Contents (Elt Ideal)) :
    (TRef.of (T := ⟨S100000, .f32⟩) main_call0_v1).ofBuf v = v := rfl
theorem carried_scalar_to (v : (⟨S_, .f32⟩ : BufTy).Contents (Elt Ideal)) :
    (TRef.of (T := ⟨S_, .f32⟩) main_call0_v0).toBuf v = v := rfl
theorem carried_scalar_from (v : (⟨S_, .f32⟩ : BufTy).Contents (Elt Ideal)) :
    (TRef.of (T := ⟨S_, .f32⟩) main_call0_v0).ofBuf v = v := rfl
theorem carried_one (v : (⟨S_, .f32⟩ : BufTy).Contents (Elt Ideal)) :
    (TRef.of (T := ⟨S_, .f32⟩) main_cst_1).ofBuf v = v := rfl

/-- The second stretch clamps the count below by the constant. -/
theorem clamp_stretch :
    StableHlo.after hostOps0_1 W (Proc.devRef .tc main_v4)
      = (maximumf (F := Ideal) (s := S100000) (φ := .f32)
          (broadcastInDim S100000 ![] bcast_S_S100000
            (id (W (Proc.devRef .tc main_cst_1) : (⟨S_, .f32⟩ : BufTy).Contents (Elt Ideal))))
          (W (Proc.devRef .tc main_v3) : (⟨S100000, .f32⟩ : BufTy).Contents (Elt Ideal))
        : (⟨S100000, .f32⟩ : BufTy).Contents (Elt Ideal)) := by
  dsimp only [hostOps0_1]
  after_results
  rw [carried_v4, carried_v3, carried_row_from, carried_row_to, carried_scalar_from, carried_scalar_to, carried_one]

/-- The third stretch raises the clamped count to the power −1/2 and lays it out as a column. -/
theorem power_stretch :
    StableHlo.after hostOps0_2 W (Proc.devRef .tc main_v7)
      = shapeCast S100000x1
          (Host.powf (F := Ideal) (W (Proc.devRef .tc main_v4))
            (broadcastInDim S100000 ![] bcast_S_S100000 (constant (F := Ideal) S_ .f32 0xBF000000#32)))
          shapeCasts_S100000_S100000x1 := by
  dsimp only [hostOps0_2]
  after_results
  rfl

end Stretches

/-- The scale column the first region is entered with. -/
theorem entry0_scale (c : Dev nD) :
    V3 m ρ c main_v7 = shapeCast S100000x1 (degreeScale (m ((c : Thread nD τ).loc main_arg3))) shapeCasts_S100000_S100000x1 := by
  show StableHlo.after hostOps0_2 (W2 m ρ c) (Proc.devRef .tc main_v7) = _
  rw [power_stretch]
  rw [show W2 m ρ c (Proc.devRef .tc main_v4) = StableHlo.after hostOps0_1 (W1 m ρ c) (Proc.devRef .tc main_v4) from rfl,
    clamp_stretch]
  rw [show W1 m ρ c (Proc.devRef .tc main_cst_1) = StableHlo.after hostOps0 (W0 m ρ c) (Proc.devRef .tc main_cst_1) from rfl,
    one_stretch,
    show W1 m ρ c (Proc.devRef .tc main_v3) = StableHlo.after hostOps0 (W0 m ρ c) (Proc.devRef .tc main_v3) from rfl,
    count_stretch]
  rfl

/-! ## At the second region's entry -/

/-- The first region leaves the buffers that are not its arrays alone, and its input arrays as it found them. -/
theorem mid_bias (c : Dev nD) : W4 m ρ c (Proc.devRef .tc main_arg2) = m ((c : Thread nD τ).loc main_arg2) :=
  (W4_of_ne m ρ c main_arg2 (by decide)).trans (entry0_bias m ρ c)
theorem mid_src (c : Dev nD) : W4 m ρ c (Proc.devRef .tc main_arg3) = m ((c : Thread nD τ).loc main_arg3) :=
  (W4_of_ne m ρ c main_arg3 (by decide)).trans (entry0_src m ρ c)
theorem mid_dst (c : Dev nD) : W4 m ρ c (Proc.devRef .tc main_arg4) = m ((c : Thread nD τ).loc main_arg4) :=
  (W4_of_ne m ρ c main_arg4 (by decide)).trans (entry0_dst m ρ c)
theorem mid_scale (c : Dev nD) : W4 m ρ c (Proc.devRef .tc main_v7) = V3 m ρ c main_v7 :=
  (W4_arr m ρ c 2).trans (((dat0 (V3 m ρ) c).arrAt_in 2 rfl _).trans (A_eq0 (V3 m ρ) c 2))
theorem mid_product (c : Dev nD) : W4 m ρ c (Proc.devRef .tc main_v8) = (dat0 (V3 m ρ) c).arrAt 3 cfg0.N :=
  W4_arr m ρ c 3

/-- The aggregate the second region is entered with: the gather–scatter of the first region's result. -/
theorem entry1_aggregate (c : Dev nD) :
    V5 m ρ c main_v18 = aggregate ((dat0 (V3 m ρ) c).arrAt 3 cfg0.N)
      (m ((c : Thread nD τ).loc main_arg3)) (m ((c : Thread nD τ).loc main_arg4)) := by
  show W5 m ρ c (Proc.devRef .tc main_v18) = _
  dsimp only [W5, hostOps1]
  after_results
  rw [mid_product m ρ c, mid_src m ρ c, mid_dst m ρ c]
  rfl

/-- The scale column the second region is entered with is the first region's. -/
theorem entry1_scale (c : Dev nD) : V5 m ρ c main_v7 = V3 m ρ c main_v7 := by
  show W5 m ρ c (Proc.devRef .tc main_v7) = _
  dsimp only [W5, hostOps1]
  after_results
  exact mid_scale m ρ c

/-- The bias row the second region is entered with. -/
theorem entry1_bias (c : Dev nD) :
    V5 m ρ c main_v19 = shapeCast S1x64 (m ((c : Thread nD τ).loc main_arg2)) shapeCasts_S64_S1x64 := by
  show W5 m ρ c (Proc.devRef .tc main_v19) = _
  dsimp only [W5, hostOps1]
  after_results
  rw [mid_bias m ρ c]
  rfl

end Cert.KernelIdeal.Between

end
-- ==== Proof.KernelValue.lean ====
/-
  The kernel program's result as one function of its arguments.

  Reading the run backwards from the result buffer: the second region leaves it at `scaledShifted` of the
  aggregate, the scale column and the bias row it was entered with; the aggregate is the gather–scatter of the
  first region's result, which is `scaledProduct` of the features, the weight and the scale column; the scale
  column is the degree scale of the source indices, laid out as a column. Substituting gives `layer`.
-/
import proofs.«157520_j9706626090092_1_alg».proof.Proof.Region0
import proofs.«157520_j9706626090092_1_alg».proof.Proof.Region1
import proofs.«157520_j9706626090092_1_alg».proof.Proof.HostReads
import proofs.«157520_j9706626090092_1_alg».proof.Proof.KernelRun

set_option maxRecDepth 16384

noncomputable section

open Idealize.ShloMosaic Idealize.ShloMosaic.TcCoe Idealize.SL.Sem

namespace Cert.KernelIdeal.Result

open Cert.KernelIdeal Cert.KernelIdeal.Gen Cert.Spec Cert.KernelIdeal.Between

/-- The layer: project and scale, aggregate along the edges, scale again and add the bias. -/
def layer (x : (⟨S100000x128, .f32⟩ : BufTy).Contents (Elt Ideal)) (w : (⟨S128x64, .f32⟩ : BufTy).Contents (Elt Ideal))
    (b : (⟨S64, .f32⟩ : BufTy).Contents (Elt Ideal)) (src dst : (⟨S1600000, .i32⟩ : BufTy).Contents (Elt Ideal)) :
    (⟨S100000x64, .f32⟩ : BufTy).Contents (Elt Ideal) :=
  scaledShifted
    (aggregate (scaledProduct x w (shapeCast S100000x1 (degreeScale src) shapeCasts_S100000_S100000x1)) src dst)
    (shapeCast S100000x1 (degreeScale src) shapeCasts_S100000_S100000x1)
    (shapeCast S1x64 b shapeCasts_S64_S1x64)

variable (m : (ℓ : Loc nD τ sig) → Buf (Elt Ideal) ℓ) (ρ : Dev nD → PrngReg)

/-- The result buffer's contents at the last boundary of the run. -/
theorem result_eq (c : Dev nD) :
    W6 m ρ c (Proc.devRef .tc main_v20)
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  refine (W6_arr m ρ c 3).trans ((Scaling.arr_eq (V5 m ρ) c).trans ?_)
  rw [entry1_aggregate m ρ c, entry1_scale m ρ c, entry1_bias m ρ c, Projection.arr_eq (V3 m ρ) c,
    entry0_feat m ρ c, entry0_weight m ρ c, entry0_scale m ρ c]
  rfl

/-- The run, read: the result buffer ends at the layer of the arguments, the arguments as launched. -/
theorem run : θ_run defs (onTc (τ := τ) (main (F := Ideal))) ⟨m, fun _ => 0, ρ⟩ (fun r => ∀ c : Dev nD,
      r.2.mem ((c.tc : Thread nD τ).loc main_v20)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Named.run_named m ρ)

end Cert.KernelIdeal.Result

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.Algebra.lean ====
/-
  The reference's two dense steps in the layer's own terms.

  The reference scales the rows of the product x · w by a vector nv laid out as a column and broadcast along
  the rows ((x · w) (r, q) · nv r), and later scales the aggregate the same way and adds the bias vector
  broadcast down the rows (a (r, q) · nv r + b q). The kernels read the same vector through a column table
  [100000, 1] and the bias through a row table [1, 64], both made by a reshape. A reshape of a vector to one
  column, or to one row, is the broadcast that makes the same table, so both steps are the functions
  `scaledProduct` and `scaledShifted` of the reshaped tables. No law of arithmetic is used: each entry of
  the two sides is literally the same sum, product and sum.
-/
import proofs.«157520_j9706626090092_1_alg».proof.Proof.Spec
import proofs.«157520_j9706626090092_1_alg».proof.Proof.LibPlainDot
import proofs.«157520_j9706626090092_1_alg».proof.Proof.LibReshapeAsBroadcast
import Idealize.ShloMosaic.Lib.Pipeline.Value
import Idealize.ShloMosaic.Lib.ValueIdx
import Idealize.ShloMosaic.PureOps.Ideal.Laws

noncomputable section

namespace Cert.Algebra

open Idealize.ShloMosaic Idealize.ShloMosaic.ValueIdx Cert.Spec

/-- A column table broadcast along the rows, at entry (r, q): the column's entry (r, 0). -/
theorem column_along_rows (n : (⟨2, ![100000, 1]⟩ : Shape).Idx → EReal)
    (h2 : (⟨2, ![100000, 1]⟩ : Shape).BroadcastsInDim ⟨2, ![100000, 64]⟩ ![0, 1]) (r : Fin 100000) (q : Fin 64) :
    broadcastInDim ⟨2, ![100000, 64]⟩ ![0, 1] h2 n (ix2 r q) = n (ix2 r (0 : Fin 1)) :=
  broadcastInDim_apply ![0, 1] h2 n (ix2 r q) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else q.val; rw [if_pos rfl])

/-- A row table broadcast down the rows, at entry (r, q): the row's entry (0, q). -/
theorem row_down_rows (b : (⟨2, ![1, 64]⟩ : Shape).Idx → EReal)
    (g2 : (⟨2, ![1, 64]⟩ : Shape).BroadcastsInDim ⟨2, ![100000, 64]⟩ ![0, 1]) (r : Fin 100000) (q : Fin 64) :
    broadcastInDim ⟨2, ![100000, 64]⟩ ![0, 1] g2 b (ix2 r q) = b (ix2 (0 : Fin 1) q) :=
  broadcastInDim_apply ![0, 1] g2 b (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])

/-- The host's product scaled by the broadcast vector is `scaledProduct` of the vector reshaped to a column. -/
theorem product_form (d : DotDims ⟨2, ![100000, 128]⟩ ⟨2, ![128, 64]⟩ ⟨2, ![100000, 64]⟩)
    (hlc : d.lhsContracting = [1]) (hrc : d.rhsContracting = [0])
    (hln : d.lhsNonContracting = [0]) (hrn : d.rhsNonContracting = [1])
    (hlb : d.lhsBatch = []) (hrb : d.rhsBatch = [])
    (x : FVec Ideal ⟨2, ![100000, 128]⟩ .f32) (w : FVec Ideal ⟨2, ![128, 64]⟩ .f32) (nv : FVec Ideal ⟨1, ![100000]⟩ .f32)
    (h1 : (⟨1, ![100000]⟩ : Shape).BroadcastsInDim ⟨2, ![100000, 1]⟩ (![0] : Fin 1 → Fin 2))
    (h2 : (⟨2, ![100000, 1]⟩ : Shape).BroadcastsInDim ⟨2, ![100000, 64]⟩ ![0, 1])
    (hc : (⟨1, ![100000]⟩ : Shape).ShapeCasts ⟨2, ![100000, 1]⟩) :
    mulf (Host.dotGeneral (F := Ideal) d none x w)
        (broadcastInDim ⟨2, ![100000, 64]⟩ ![0, 1] h2 (broadcastInDim ⟨2, ![100000, 1]⟩ ![0] h1 nv))
      = scaledProduct x w (shapeCast ⟨2, ![100000, 1]⟩ nv hc) := by
  rw [← Idealize.ShloMosaic.ReshapeAsBroadcast.shapeCast_col 100000 nv hc h1]
  funext i
  obtain ⟨r, q, rfl⟩ : ∃ (r : Fin 100000) (q : Fin 64), i = ix2 r q := ⟨i 0, i 1, eq_ix2 i⟩
  rw [mulf_apply, scaledProduct_apply]
  refine congrArg₂ (· * ·) ?_ (column_along_rows _ h2 r q)
  simp only [Host.dotGeneral]
  exact Cert.LibPlainDot.dotGeneral_apply d hlc hrc hln hrn hlb hrb none _ x w r q

/-- The host's scaling and bias step is `scaledShifted` of the vector reshaped to a column and the bias
    reshaped to a row. -/
theorem shifted_form (a : FVec Ideal ⟨2, ![100000, 64]⟩ .f32) (nv : FVec Ideal ⟨1, ![100000]⟩ .f32)
    (b : FVec Ideal ⟨1, ![64]⟩ .f32)
    (h1 : (⟨1, ![100000]⟩ : Shape).BroadcastsInDim ⟨2, ![100000, 1]⟩ (![0] : Fin 1 → Fin 2))
    (h2 : (⟨2, ![100000, 1]⟩ : Shape).BroadcastsInDim ⟨2, ![100000, 64]⟩ ![0, 1])
    (g1 : (⟨1, ![64]⟩ : Shape).BroadcastsInDim ⟨2, ![1, 64]⟩ (![1] : Fin 1 → Fin 2))
    (g2 : (⟨2, ![1, 64]⟩ : Shape).BroadcastsInDim ⟨2, ![100000, 64]⟩ ![0, 1])
    (hc : (⟨1, ![100000]⟩ : Shape).ShapeCasts ⟨2, ![100000, 1]⟩)
    (gc : (⟨1, ![64]⟩ : Shape).ShapeCasts ⟨2, ![1, 64]⟩) :
    addf (mulf a (broadcastInDim ⟨2, ![100000, 64]⟩ ![0, 1] h2 (broadcastInDim ⟨2, ![100000, 1]⟩ ![0] h1 nv)))
        (broadcastInDim ⟨2, ![100000, 64]⟩ ![0, 1] g2 (broadcastInDim ⟨2, ![1, 64]⟩ ![1] g1 b))
      = scaledShifted a (shapeCast ⟨2, ![100000, 1]⟩ nv hc) (shapeCast ⟨2, ![1, 64]⟩ b gc) := by
  rw [← Idealize.ShloMosaic.ReshapeAsBroadcast.shapeCast_col 100000 nv hc h1,
    ← Idealize.ShloMosaic.ReshapeAsBroadcast.shapeCast_row 64 b gc g1]
  funext i
  obtain ⟨r, q, rfl⟩ : ∃ (r : Fin 100000) (q : Fin 64), i = ix2 r q := ⟨i 0, i 1, eq_ix2 i⟩
  rw [addf_apply, mulf_apply, scaledShifted_apply]
  exact congrArg₂ (· + ·) (congrArg₂ (· * ·) rfl (column_along_rows _ h2 r q)) (row_down_rows _ g2 r q)

end Cert.Algebra

end
-- ==== Proof.lean ====
/-
  A graph-convolution layer with symmetric degree scaling, in two kernels around the host's gather and
  scatter-add, against its plain reference: both compute, on extended reals,

      out (r, q) = (∑ over edges e into r of h (src e, q)) · n r + bias q,
      h (i, q)   = (∑ k, feat (i, k) · weight (k, q)) · n i,
      n i        = max (1, out-degree of i) ^ (−1/2).

  The kernel program computes h in ten row blocks (a block product scaled by the block's piece of n, laid out
  as a column), hands it to the same gather and scatter-add the reference uses, and scales and shifts the
  aggregate in ten row blocks again; the reference does each dense step on whole arrays with n and the bias
  broadcast. Block by block the stored entries are the entries of `scaledProduct` and `scaledShifted`
  (Region0, Region1), the blocks tile the arrays, the host steps between the regions are read as they stand
  (HostReads), and the reference's two dense steps are the same two functions (Algebra): entry by entry the
  two sides are the same sums and products, so no law of arithmetic and no finiteness of the inputs is used.
  The degree count, the gather and the scatter-add are one and the same term on both sides and are never
  opened. The idealization rewrote nothing, so its conjunct is trivial. The three frames are the generated
  ones (the reference's from its generated run).
-/
import proofs.«157520_j9706626090092_1_alg».proof.Defs
import proofs.«157520_j9706626090092_1_alg».proof.Proof.Gen.Kernel
import proofs.«157520_j9706626090092_1_alg».proof.Proof.Gen.Kernel.Frame
import proofs.«157520_j9706626090092_1_alg».proof.Proof.Gen.KernelIdeal
import proofs.«157520_j9706626090092_1_alg».proof.Proof.Gen.KernelIdeal.Frame
import proofs.«157520_j9706626090092_1_alg».proof.Proof.Gen.ReferenceIdeal
import proofs.«157520_j9706626090092_1_alg».proof.Proof.Gen.ReferenceIdeal.Run
import proofs.«157520_j9706626090092_1_alg».proof.Proof.Gen.ReferenceIdeal.Read
import proofs.«157520_j9706626090092_1_alg».proof.Proof.Gen.Pre_finite_inputs
import proofs.«157520_j9706626090092_1_alg».proof.Proof.KernelValue
import proofs.«157520_j9706626090092_1_alg».proof.Proof.Algebra

set_option maxRecDepth 16384

noncomputable section

open Idealize.ShloMosaic Idealize.ShloMosaic.TcCoe Idealize.SL.Sem

/-! ## The reference's result is the layer -/

namespace Cert.ReferenceIdeal.Layer

open Cert.ReferenceIdeal.Read Cert.Spec Cert.KernelIdeal.Between

variable (x : (⟨Cert.ReferenceIdeal.S100000x128, .f32⟩ : BufTy).Contents (Elt Ideal))
  (w : (⟨Cert.ReferenceIdeal.S128x64, .f32⟩ : BufTy).Contents (Elt Ideal))
  (b : (⟨Cert.ReferenceIdeal.S64, .f32⟩ : BufTy).Contents (Elt Ideal))
  (src dst : (⟨Cert.ReferenceIdeal.S1600000, .i32⟩ : BufTy).Contents (Elt Ideal))

/-- The reference's scale vector is the degree scale: the same count, clamp and power. -/
theorem scale_eq : val_main_v6 (F := Ideal) src = degreeScale src := rfl

/-- The reference's scaled product is `scaledProduct` of the scale vector laid out as a column. -/
theorem product_eq :
    val_main_v10 (F := Ideal) x w src
      = scaledProduct x w (shapeCast Cert.KernelIdeal.S100000x1 (val_main_v6 (F := Ideal) src) Cert.KernelIdeal.Gen.shapeCasts_S100000_S100000x1) :=
  Cert.Algebra.product_form Cert.ReferenceIdeal.dot_S100000x128_S128x64_S100000x64_1_0_0_1_n_n rfl rfl rfl rfl rfl rfl
    x w (val_main_v6 (F := Ideal) src) Cert.ReferenceIdeal.Gen.bcast_S100000_S100000x1_0 Cert.ReferenceIdeal.Gen.bcast_S100000x1_S100000x64_0_1
    Cert.KernelIdeal.Gen.shapeCasts_S100000_S100000x1

/-- The reference aggregates its scaled product by the very gather and scatter-add the kernel program uses. -/
theorem aggregate_eq : val_main_v20 (F := Ideal) x w src dst = aggregate (val_main_v10 (F := Ideal) x w src) src dst := rfl

/-- The reference's last step is `scaledShifted` of its aggregate, the scale column and the bias row. -/
theorem shifted_eq :
    val_main_v26 (F := Ideal) x w b src dst
      = scaledShifted (val_main_v20 (F := Ideal) x w src dst)
          (shapeCast Cert.KernelIdeal.S100000x1 (val_main_v6 (F := Ideal) src) Cert.KernelIdeal.Gen.shapeCasts_S100000_S100000x1)
          (shapeCast Cert.KernelIdeal.S1x64 b Cert.KernelIdeal.Gen.shapeCasts_S64_S1x64) :=
  Cert.Algebra.shifted_form (val_main_v20 (F := Ideal) x w src dst) (val_main_v6 (F := Ideal) src) b
    Cert.ReferenceIdeal.Gen.bcast_S100000_S100000x1_0 Cert.ReferenceIdeal.Gen.bcast_S100000x1_S100000x64_0_1
    Cert.ReferenceIdeal.Gen.bcast_S64_S1x64_1 Cert.ReferenceIdeal.Gen.bcast_S1x64_S100000x64_0_1
    Cert.KernelIdeal.Gen.shapeCasts_S100000_S100000x1 Cert.KernelIdeal.Gen.shapeCasts_S64_S1x64

/-- So the reference's result is the layer of its arguments. -/
theorem result_eq : val_main_v26 (F := Ideal) x w b src dst = Cert.KernelIdeal.Result.layer x w b src dst := by
  rw [shifted_eq, aggregate_eq, product_eq, scale_eq]
  rfl

end Cert.ReferenceIdeal.Layer

/-! ## The claims -/

namespace Cert.Proof

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of the shared arguments in their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  exact (Cert.ReferenceIdeal.Read.val_main_v26_eq _ _ _ _ _).trans (Cert.ReferenceIdeal.Layer.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
